-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x64, .f32⟩
  | .hbm, ⟨61, _⟩ => ⟨S128x64, .f32⟩
  | .hbm, ⟨62, _⟩ => ⟨S1x64, .f32⟩
  | .hbm, ⟨63, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S128x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Rows.lean ====
/-
  One node's row through each layer, as a function of that node's aggregated row, its own feature row, the two weight
  matrices and the bias.

  Layer 1: feature q of the output row is max(0, Σₖ a k · Wl(k, q) + b q + Σₖ x k · Wr(k, q)).
  Layer 2: the same affine form into 64 features, followed by the log-softmax of the row: with M the greatest of the 64
  entries, entry q is (z q − M) − log Σⱼ exp(z j − M).

  A whole array of R rows is these functions applied row by row; the same definition serves a block of 5000 rows and the
  array of 50000.
-/
import Idealize.ShloMosaic.PureOps.Ideal.Laws
import Idealize.ShloMosaic.Lib.ValueIdx

noncomputable section

namespace Cert.Sage

open Idealize.ShloMosaic Idealize.ShloMosaic.ValueIdx

/-- The affine part of a layer at output feature q: the aggregated row through the left weights, plus the bias, plus the
    node's own row through the right weights (in that order of addition). -/
def affine {D : Nat} (a x : Fin 128 → EReal) (Wl Wr : (⟨2, ![128, D]⟩ : Shape).Idx → EReal) (b : Fin D → EReal) (q : Fin D) : EReal :=
  ((∑ k : Fin 128, a k * Wl (ix2 k q)) + b q) + ∑ k : Fin 128, x k * Wr (ix2 k q)

/-- Layer 1 at feature q: the affine part clamped below at zero. -/
def row1 (a x : Fin 128 → EReal) (Wl Wr : (⟨2, ![128, 128]⟩ : Shape).Idx → EReal) (b : Fin 128 → EReal) (q : Fin 128) : EReal :=
  max (affine a x Wl Wr b q) 0

/-- The greatest entry of a row of 64 (the fold of max from −∞). -/
def rowMax (z : Fin 64 → EReal) : EReal := (Finset.univ : Finset (Fin 64)).fold max ⊥ z

/-- The log-softmax of a row of 64 at entry q. -/
def logSoftmaxRow (z : Fin 64 → EReal) (q : Fin 64) : EReal :=
  (z q - rowMax z) - Ideal.log (∑ j : Fin 64, Ideal.exp (z j - rowMax z))

/-- Layer 2 at feature q: the log-softmax of the affine row. -/
def row2 (a x : Fin 128 → EReal) (Wl Wr : (⟨2, ![128, 64]⟩ : Shape).Idx → EReal) (b : Fin 64 → EReal) (q : Fin 64) : EReal :=
  logSoftmaxRow (affine a x Wl Wr b) q

/-- Layer 1 on R rows: row p of the output is `row1` of row p of the aggregate and row p of the features. -/
def layer1 {R : Nat} (A X : (⟨2, ![R, 128]⟩ : Shape).Idx → EReal) (Wl Wr : (⟨2, ![128, 128]⟩ : Shape).Idx → EReal)
    (b : Fin 128 → EReal) : (⟨2, ![R, 128]⟩ : Shape).Idx → EReal :=
  fun j => row1 (fun k => A (ix2 (j 0) k)) (fun k => X (ix2 (j 0) k)) Wl Wr b (j 1)

/-- Layer 2 on R rows. -/
def layer2 {R : Nat} (A X : (⟨2, ![R, 128]⟩ : Shape).Idx → EReal) (Wl Wr : (⟨2, ![128, 64]⟩ : Shape).Idx → EReal)
    (b : Fin 64 → EReal) : (⟨2, ![R, 64]⟩ : Shape).Idx → EReal :=
  fun j => row2 (fun k => A (ix2 (j 0) k)) (fun k => X (ix2 (j 0) k)) Wl Wr b (j 1)

theorem layer1_apply {R : Nat} (A X : (⟨2, ![R, 128]⟩ : Shape).Idx → EReal) (Wl Wr : (⟨2, ![128, 128]⟩ : Shape).Idx → EReal)
    (b : Fin 128 → EReal) (p : Fin R) (q : Fin 128) :
    layer1 A X Wl Wr b (ix2 p q) = row1 (fun k => A (ix2 p k)) (fun k => X (ix2 p k)) Wl Wr b q := rfl

theorem layer2_apply {R : Nat} (A X : (⟨2, ![R, 128]⟩ : Shape).Idx → EReal) (Wl Wr : (⟨2, ![128, 64]⟩ : Shape).Idx → EReal)
    (b : Fin 64 → EReal) (p : Fin R) (q : Fin 64) :
    layer2 A X Wl Wr b (ix2 p q) = row2 (fun k => A (ix2 p k)) (fun k => X (ix2 p k)) Wl Wr b q := rfl

/-- The pattern of −∞ denotes the bottom of the extended reals. -/
theorem ofBits_neg_inf : Ideal.ofBits .f32 0xFF800000#32 = (⊥ : EReal) := by
  simp [Ideal.ofBits, Ideal.ieee]

/-- The pattern of 1.0 denotes one. -/
theorem ofBits_one : Ideal.ofBits .f32 0x3F800000#32 = (1 : EReal) := by
  simp [Ideal.ofBits, Ideal.ieee, -EReal.coe_mul]; norm_num

end Cert.Sage

end
-- ==== Proof.RowOps.lean ====
/-
  Row reductions and column broadcasts read at an index, and the log-softmax of the rows of an array.

  A [R, 1] column broadcast along the second axis reads, at (p, q), the column at (p, 0); a vector of R entries cast to a
  column reads, at (p, 0), the vector at p. A reduction of an [R, D] array over its second axis reads, at p, the fold over
  k of the array at (p, k). With these, the composition "subtract the row maximum, exponentiate, sum the row, take the
  logarithm, subtract" is, entry by entry, the log-softmax of the entry's row.
-/
import Idealize.ShloMosaic.PureOps.Ideal.Laws
import Idealize.ShloMosaic.Lib.ValueIdx
import Idealize.ShloMosaic.Lib.Pipeline.Value
import proofs.«169119_j29841432773038_1_alg».proof.Proof.Rows

noncomputable section

namespace Cert.Sage

open Idealize.ShloMosaic Idealize.ShloMosaic.ValueIdx

/-- A column broadcast along the second axis reads the column's entry of the same row. -/
theorem bcast_col_apply {α : Type} {R D : Nat} (v : (⟨2, ![R, 1]⟩ : Shape).Idx → α)
    (h : (⟨2, ![R, 1]⟩ : Shape).Broadcasts ⟨2, ![R, D]⟩) (p : Fin R) (q : Fin D) :
    broadcastTo ⟨2, ![R, D]⟩ v h (ix2 p q) = v (ix2 p (0 : Fin 1)) := by
  refine broadcastTo_apply v h (ix2 p q) (ix2 p (0 : Fin 1)) fun ax => ?_
  match ax with
  | ⟨0, _⟩ =>
    show p.val = if R = 1 then 0 else p.val
    split
    · have := p.isLt; omega
    · rfl
  | ⟨1, _⟩ => rfl

/-- A vector cast to a column reads, at row p, the vector at p. -/
theorem cast_col_apply {α : Type} {R : Nat} (v : (⟨1, ![R]⟩ : Shape).Idx → α)
    (h : (⟨1, ![R]⟩ : Shape).ShapeCasts ⟨2, ![R, 1]⟩) (p : Fin R) (u : Fin 1) :
    shapeCast ⟨2, ![R, 1]⟩ v h (ix2 p u) = v (ix1 p) :=
  shapeCast_apply v h _ _ (by
    have hu : u.val = 0 := by omega
    rw [Shape.rowMajor_val_two, Shape.rowMajor_val_one]
    show p.val = p.val * 1 + u.val
    omega)

/-- The index a reduction over the second axis inserts: row p, column k. -/
theorem lift_row {R D : Nat} (h : (⟨2, ![R, D]⟩ : Shape).Reduces [(1 : Fin 2)] ⟨1, ![R]⟩) (p : Fin R) (k : Fin D) :
    h.lift (ix1 p) k = ix2 p k := by
  funext a
  apply Fin.ext
  match a with
  | ⟨0, _⟩ => rfl
  | ⟨1, _⟩ => rfl

/-- The kernel's row maximum at row p is the fold of max from −∞ over the row. -/
theorem mr_rowmax_apply {R : Nat} (z : FVec Ideal ⟨2, ![R, 64]⟩ .f32)
    (h : (⟨2, ![R, 64]⟩ : Shape).Reduces [(1 : Fin 2)] ⟨1, ![R]⟩) (hφ : FKind.Formats .f32)
    (hacc : (0xFF800000#32 : BitVec 32) = FKind.maximumf.neutral .f32 hφ) (p : Fin R) :
    multiReduction .maximumf [(1 : Fin 2)] ⟨1, ![R]⟩ z 0xFF800000#32 h hφ hacc (ix1 p) = rowMax (fun k => z (ix2 p k)) := by
  rw [Ideal.multiReduction_maximumf_single]
  unfold rowMax
  rw [Ideal.ofBits_def, ofBits_neg_inf]
  have e : (z ∘ h.lift (ix1 p)) = fun k => z (ix2 p k) := funext fun k => congrArg z (lift_row h p k)
  rw [e]
  rfl

/-- The kernel's row sum at row p is the sum over the row. -/
theorem mr_rowsum_apply {R : Nat} (e : FVec Ideal ⟨2, ![R, 64]⟩ .f32)
    (h : (⟨2, ![R, 64]⟩ : Shape).Reduces [(1 : Fin 2)] ⟨1, ![R]⟩) (hφ : FKind.Formats .f32)
    (hacc : (0x00000000#32 : BitVec 32) = FKind.add.neutral .f32 hφ) (p : Fin R) :
    multiReduction .add [(1 : Fin 2)] ⟨1, ![R]⟩ e 0x00000000#32 h hφ hacc (ix1 p) = ∑ k : Fin 64, e (ix2 p k) := by
  rw [Ideal.multiReduction_add_single]
  exact Finset.sum_congr rfl fun k _ => congrArg e (lift_row h p k)

/-- The log-softmax of every row of an [R, 64] array. -/
def logSoftmaxRows {R : Nat} (z : (⟨2, ![R, 64]⟩ : Shape).Idx → EReal) : (⟨2, ![R, 64]⟩ : Shape).Idx → EReal :=
  fun j => logSoftmaxRow (fun k => z (ix2 (j 0) k)) (j 1)

/-- THE KERNEL'S COMPOSITION is the log-softmax of the rows. -/
theorem kernel_logSoftmax {R : Nat} (z : FVec Ideal ⟨2, ![R, 64]⟩ .f32)
    (h : (⟨2, ![R, 64]⟩ : Shape).Reduces [(1 : Fin 2)] ⟨1, ![R]⟩) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, 64]⟩) :
    subf (subf z (broadcastTo ⟨2, ![R, 64]⟩ (shapeCast ⟨2, ![R, 1]⟩ (multiReduction .maximumf [(1 : Fin 2)] ⟨1, ![R]⟩ z 0xFF800000#32 h hφ hmax) hc) hb))
      (broadcastTo ⟨2, ![R, 64]⟩ (log (shapeCast ⟨2, ![R, 1]⟩ (multiReduction .add [(1 : Fin 2)] ⟨1, ![R]⟩
        (exp (subf z (broadcastTo ⟨2, ![R, 64]⟩ (shapeCast ⟨2, ![R, 1]⟩ (multiReduction .maximumf [(1 : Fin 2)] ⟨1, ![R]⟩ z 0xFF800000#32 h hφ hmax) hc) hb)))
        0x00000000#32 h hφ hadd) hc)) hb)
      = logSoftmaxRows z := by
  funext j
  obtain ⟨p, q, rfl⟩ : ∃ (p : Fin R) (q : Fin 64), j = ix2 p q := ⟨j 0, j 1, eq_ix2 j⟩
  have hM : ∀ q' : Fin 64, broadcastTo ⟨2, ![R, 64]⟩ (shapeCast ⟨2, ![R, 1]⟩ (multiReduction .maximumf [(1 : Fin 2)] ⟨1, ![R]⟩ z 0xFF800000#32 h hφ hmax) hc) hb (ix2 p q')
      = rowMax (fun k => z (ix2 p k)) := fun q' => by
    rw [bcast_col_apply, cast_col_apply, mr_rowmax_apply]
  rw [subf_apply, subf_apply, hM, bcast_col_apply]
  show (z (ix2 p q) - rowMax fun k => z (ix2 p k)) - Ideal.log (shapeCast ⟨2, ![R, 1]⟩ _ hc (ix2 p (0 : Fin 1))) = _
  rw [cast_col_apply, mr_rowsum_apply]
  unfold logSoftmaxRows logSoftmaxRow
  refine congrArg (fun s => (z (ix2 p q) - rowMax fun k => z (ix2 p k)) - Ideal.log s) (Finset.sum_congr rfl fun k _ => ?_)
  show Ideal.exp (subf z _ (ix2 p k)) = _
  rw [subf_apply, hM]
  rfl

end Cert.Sage

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KPay.lean ====
/-
  What each kernel body stores, as a function of the blocks it loads.

  The body of the first call forms, for its 5000 rows, the aggregated block times the left weights plus the bias row plus
  the feature block times the right weights, clamped below at zero: `layer1` of its blocks. The body of the second call
  forms the same affine expression into 64 features and takes each row's log-softmax: `layer2` of its blocks. A change of
  float format is the identity on the extended reals, and a matrix product into a zero accumulator is the plain sum of
  products.
-/
import proofs.«169119_j29841432773038_1_alg».proof.Proof.Gen.KernelIdeal.Skeleton
import proofs.«169119_j29841432773038_1_alg».proof.Proof.Rows
import proofs.«169119_j29841432773038_1_alg».proof.Proof.RowOps
import proofs.«169119_j29841432773038_1_alg».proof.Proof.LibMatmul
import Idealize.ShloMosaic.Lib.ValueLayout
import Idealize.ShloMosaic.Lib.Pipeline.Value

noncomputable section

namespace Cert.KernelIdeal.Pay

open Cert.KernelIdeal Cert.KernelIdeal.Gen Cert.Sage
open Idealize.ShloMosaic Idealize.ShloMosaic.TcCoe Idealize.ShloMosaic.ValueIdx

theorem dot128_eq : dot_S5000x128_S128x128_S5000x128_1_0_0_1_n_n = DotDims.plain 5000 128 128 := rfl
theorem dot64_eq : dot_S5000x128_S128x64_S5000x64_1_0_0_1_n_n = DotDims.plain 5000 128 64 := rfl

/-- The first body's stored value is layer 1 of its blocks (the bias block's one row read at each feature). -/
theorem pay1_eq (x0 x1 : Vec Ideal S5000x128 .f32) (x2 x4 : Vec Ideal S128x128 .f32) (x3 : Vec Ideal S1x128 .f32) :
    k0_pay1 (F := Ideal) x0 x1 x2 x4 x3 = layer1 (R := 5000) x0 x1 x2 x4 (fun q => x3 (ix2 0 q)) := by
  funext j
  obtain ⟨p, q, rfl⟩ : ∃ (p : Fin 5000) (q : Fin 128), j = ix2 p q := ⟨j 0, j 1, eq_ix2 j⟩
  rw [layer1_apply]
  unfold k0_pay1 row1 affine
  dsimp only
  rw [maximumf_apply, addf_apply, addf_apply, broadcast_apply, dot128_eq]
  simp only [Cert.Matmul.matmul_plain_apply, broadcastTo_1b_ab_apply, truncf_apply, shapeCast_self, Ideal.ofBits_def,
    Ideal.ofBits_zero_f32]

/-- The affine part of the second body at (p, q): the aggregated block through the left weights, plus the bias row, plus
    the feature block through the right weights. -/
theorem affine2_apply (x0 x1 : Vec Ideal S5000x128 .f32) (x2 x4 : Vec Ideal S128x64 .f32) (x3 : Vec Ideal S1x64 .f32)
    (p : Fin 5000) (q : Fin 64) :
    addf (addf (matmul (F := Ideal) dot_S5000x128_S128x64_S5000x64_1_0_0_1_n_n none
          (truncf .bf16 (shapeCast S5000x128 x0 shapeCasts_S5000x128_S5000x128) bitsLt_bf16_f32)
          (truncf .bf16 (shapeCast S128x64 x2 shapeCasts_S128x64_S128x64) bitsLt_bf16_f32) (constant S5000x64 .f32 0x00000000#32))
        (broadcastTo S5000x64 (shapeCast S1x64 x3 shapeCasts_S1x64_S1x64) broadcasts_S1x64_S5000x64))
      (matmul (F := Ideal) dot_S5000x128_S128x64_S5000x64_1_0_0_1_n_n none
          (truncf .bf16 (shapeCast S5000x128 x1 shapeCasts_S5000x128_S5000x128) bitsLt_bf16_f32)
          (truncf .bf16 (shapeCast S128x64 x4 shapeCasts_S128x64_S128x64) bitsLt_bf16_f32) (constant S5000x64 .f32 0x00000000#32)) (ix2 p q)
      = affine (fun k => x0 (ix2 p k)) (fun k => x1 (ix2 p k)) x2 x4 (fun q => x3 (ix2 0 q)) q := by
  unfold affine
  rw [addf_apply, addf_apply, dot64_eq]
  simp only [Cert.Matmul.matmul_plain_apply, broadcastTo_1b_ab_apply, truncf_apply, shapeCast_self]

/-- The second body's stored value is layer 2 of its blocks: the log-softmax of each row of the affine part. -/
theorem pay2_eq (x0 x1 : Vec Ideal S5000x128 .f32) (x2 x4 : Vec Ideal S128x64 .f32) (x3 : Vec Ideal S1x64 .f32) :
    k1_pay1 (F := Ideal) x0 x1 x2 x4 x3 = layer2 (R := 5000) x0 x1 x2 x4 (fun q => x3 (ix2 0 q)) := by
  unfold k1_pay1
  dsimp only
  refine (kernel_logSoftmax (R := 5000) _ _ _ _ _ _ _).trans ?_
  funext j
  obtain ⟨p, q, rfl⟩ : ∃ (p : Fin 5000) (q : Fin 64), j = ix2 p q := ⟨j 0, j 1, eq_ix2 j⟩
  rw [layer2_apply]
  unfold logSoftmaxRows row2
  exact congrArg (fun z => logSoftmaxRow z q) (funext fun k => affine2_apply x0 x1 x2 x4 x3 p k)

end Cert.KernelIdeal.Pay

end
-- ==== Proof.KBlocks.lean ====
/-
  From blocks to arrays: what each region leaves in its output array.

  Each region walks ten grid points; at point t it reads rows 5000 t … 5000 t + 4999 of its two row-blocked inputs and the
  whole of its weight and bias arrays, and writes back rows 5000 t … 5000 t + 4999 of its output. Both layers act row by
  row, so block t of the layer applied to the whole arrays is the layer applied to block t; the ten blocks tile the array.
-/
import proofs.«169119_j29841432773038_1_alg».proof.Proof.Gen.KernelIdeal.Frame
import proofs.«169119_j29841432773038_1_alg».proof.Proof.KPay
import Idealize.ShloMosaic.Lib.Pipeline.Value

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 0 -/

/-- The all-zero offsets of a whole-buffer rectangle, as a constant function. -/
theorem hz : (![0, 0] : Fin 2 → Nat) = fun _ => 0 := funext fun a => by fin_cases a <;> rfl

/-- The index maps of region 0, decided over the grid: the row-blocked windows 0, 1, 5 sit at block (t, 0), the weight
    and bias windows 2, 3, 4 at block (0, 0). -/
theorem idx0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- Window 0's block at point t is rows 5000 t … 5000 t + 4999 of the aggregate array. -/
theorem iblk0_0 (c : Dev nD) (t : Fin cfg0.N) (x : S5000x128.Idx) (i : S50000x128.Idx)
    (h0 : (i 0).val = t.val * 5000 + (x 0).val) (h1 : (i 1).val = (x 1).val) :
    (iblk0 V c 0 t : Vec Ideal S5000x128 .f32) x = (V c main_v24 : S50000x128.Idx → EReal) i := by
  obtain ⟨e0, e1, -⟩ := idx0 t
  unfold iblk0
  rw [View.read_apply]
  show V c main_v24 _ = V c main_v24 _
  congr 1
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- Window 2's block at every point is the whole left weight matrix. -/
theorem iblk0_2 (c : Dev nD) (t : Fin cfg0.N) (x : S128x128.Idx) :
    (iblk0 V c 2 t : Vec Ideal S128x128 .f32) x = (V c main_v25 : S128x128.Idx → EReal) x := by
  obtain ⟨-, -, -, -, e0, e1, -⟩ := idx0 t
  unfold iblk0
  rw [View.read_apply]
  show V c main_v25 _ = V c main_v25 _
  congr 1
  funext a
  apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

/-- Window 1's block at point t is the same rows of the feature array. -/
theorem iblk0_1 (c : Dev nD) (t : Fin cfg0.N) (x : S5000x128.Idx) (i : S50000x128.Idx)
    (h0 : (i 0).val = t.val * 5000 + (x 0).val) (h1 : (i 1).val = (x 1).val) :
    (iblk0 V c 1 t : Vec Ideal S5000x128 .f32) x = (V c main_arg0 : S50000x128.Idx → EReal) i := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 5000 + 1 * (x 0).val = (i 0).val; omega
  | ⟨1, _⟩ => show win0_1.index t (1 : Fin 2) * 128 + 1 * (x 1).val = (i 1).val; omega

/-- Window 3's block at every point is the whole bias row. -/
theorem iblk0_3 (c : Dev nD) (t : Fin cfg0.N) (x : S1x128.Idx) :
    (iblk0 V c 3 t : Vec Ideal S1x128 .f32) x = (V c main_v27 : S1x128.Idx → EReal) x := by
  obtain ⟨-, -, -, -, -, -, e0, e1, -⟩ := idx0 t
  unfold iblk0
  rw [View.read_apply]
  show V c main_v27 _ = V c main_v27 _
  congr 1
  funext a
  apply Fin.ext
  match a with
  | ⟨0, _⟩ => show win0_3.index t (0 : Fin 2) * 1 + 1 * (x 0).val = (x 0).val; omega
  | ⟨1, _⟩ => show win0_3.index t (1 : Fin 2) * 128 + 1 * (x 1).val = (x 1).val; omega

/-- Window 4's block at every point is the whole right weight matrix. -/
theorem iblk0_4 (c : Dev nD) (t : Fin cfg0.N) (x : S128x128.Idx) :
    (iblk0 V c 4 t : Vec Ideal S128x128 .f32) x = (V c main_v26 : S128x128.Idx → EReal) x := by
  obtain ⟨-, -, -, -, -, -, -, -, e0, e1, -⟩ := idx0 t
  unfold iblk0
  rw [View.read_apply]
  show V c main_v26 _ = V c main_v26 _
  congr 1
  funext a
  apply Fin.ext
  match a with
  | ⟨0, _⟩ => show win0_4.index t (0 : Fin 2) * 128 + 1 * (x 0).val = (x 0).val; omega
  | ⟨1, _⟩ => show win0_4.index t (1 : Fin 2) * 128 + 1 * (x 1).val = (x 1).val; omega

/-- Layer 1's row function respects equality of each of its arguments. -/
theorem row1_congr {a a' x x' : Fin 128 → EReal} {Wl Wl' Wr Wr' : (⟨2, ![128, 128]⟩ : Shape).Idx → EReal}
    {b b' : Fin 128 → EReal} {q q' : Fin 128} (ha : a = a') (hx : x = x') (hl : Wl = Wl') (hr : Wr = Wr')
    (hb : b = b') (hq : q = q') : row1 a x Wl Wr b q = row1 a' x' Wl' Wr' b' q' := by
  subst ha hx hl hr hb hq; rfl

/-- Layer 1 of the blocks at point t, at row p of the block, is layer 1 of the whole arrays at row 5000 t + p. -/
theorem block0_layer (c : Dev nD) (t : Fin cfg0.N) (x : S5000x128.Idx) (i : S50000x128.Idx)
    (h0 : (i 0).val = t.val * 5000 + (x 0).val) (h1 : (i 1).val = (x 1).val) :
    layer1 (R := 5000) (iblk0 V c 0 t : Vec Ideal S5000x128 .f32) (iblk0 V c 1 t : Vec Ideal S5000x128 .f32)
        (iblk0 V c 2 t : Vec Ideal S128x128 .f32) (iblk0 V c 4 t : Vec Ideal S128x128 .f32)
        (fun q => (iblk0 V c 3 t : Vec Ideal S1x128 .f32) (ix2 0 q)) x
      = layer1 (R := 50000) (V c main_v24) (V c main_arg0) (V c main_v25) (V c main_v26)
          (fun q => (V c main_v27 : S1x128.Idx → EReal) (ix2 0 q)) i := by
  show row1 (fun k => (iblk0 V c 0 t : Vec Ideal S5000x128 .f32) (ix2 (x 0) k))
        (fun k => (iblk0 V c 1 t : Vec Ideal S5000x128 .f32) (ix2 (x 0) k))
        (iblk0 V c 2 t : Vec Ideal S128x128 .f32) (iblk0 V c 4 t : Vec Ideal S128x128 .f32)
        (fun q => (iblk0 V c 3 t : Vec Ideal S1x128 .f32) (ix2 0 q)) (x 1)
      = row1 (fun k => (V c main_v24 : S50000x128.Idx → EReal) (ix2 (i 0) k))
        (fun k => (V c main_arg0 : S50000x128.Idx → EReal) (ix2 (i 0) k))
        (V c main_v25) (V c main_v26) (fun q => (V c main_v27 : S1x128.Idx → EReal) (ix2 0 q)) (i 1)
  exact row1_congr
    (funext fun k => iblk0_0 V c t (ix2 (x 0) k) (ix2 (i 0) k) h0 rfl)
    (funext fun k => iblk0_1 V c t (ix2 (x 0) k) (ix2 (i 0) k) h0 rfl)
    (funext fun j => iblk0_2 V c t j)
    (funext fun j => iblk0_4 V c t j)
    (funext fun q => iblk0_3 V c t (ix2 0 q))
    (Fin.ext h1.symm)

/-- What point t writes back is block t of layer 1 of the whole arrays. -/
theorem flushed0_eq (c : Dev nD) (t : Fin cfg0.N) :
    (dat0 V c).flushed 5 t = ((cfg0.win 5).blk t).view.read (Elt Ideal)
      (layer1 (R := 50000) (V c main_v24) (V c main_arg0) (V c main_v25) (V c main_v26)
          (fun q => (V c main_v27 : S1x128.Idx → EReal) (ix2 0 q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Pay.pay1_eq]
  funext y
  obtain ⟨-, -, -, -, -, -, -, -, -, -, e0, e1⟩ := idx0 t
  have hE0 : ((((cfg0.win 5).blk t).view.emb y) 0).val = t.val * 5000 + (((cfg0.win 5).xinj (grid0.coords t) y) 0).val := by
    show win0_5.index t (0 : Fin 2) * 5000 + 1 * (y 0).val = t.val * 5000 + (y 0).val
    omega
  have hE1 : ((((cfg0.win 5).blk t).view.emb y) 1).val = (((cfg0.win 5).xinj (grid0.coords t) y) 1).val := by
    show win0_5.index t (1 : Fin 2) * 128 + 1 * (y 1).val = (y 1).val
    omega
  rw [View.read_apply]
  exact block0_layer V c t ((cfg0.win 5).xinj (grid0.coords t) y) (((cfg0.win 5).blk t).view.emb y) hE0 hE1

/-- Membership in the block of point t, axis by axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Every row of the output array lies in the block of the point numbered by the row divided by 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, e0, e1⟩ := idx0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1]; omega

/-- After the first region its output array holds layer 1 of the arrays the region found. -/
theorem final0 (c : Dev nD) :
    (dat0 V c).arrAt 5 cfg0.N
      = layer1 (R := 50000) (V c main_v24) (V c main_arg0) (V c main_v25) (V c main_v26)
          (fun q => (V c main_v27 : S1x128.Idx → EReal) (ix2 0 q)) :=
  (dat0 V c).arrAt_eq_of_cover 5 _ (fun t _ => flushed0_eq V c t) cover0

/-! ## Region 1 -/

/-- The index maps of region 1, decided over the grid. -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- Window 0's block at point t is rows 5000 t … 5000 t + 4999 of the aggregate array. -/
theorem iblk1_0 (c : Dev nD) (t : Fin cfg1.N) (x : S5000x128.Idx) (i : S50000x128.Idx)
    (h0 : (i 0).val = t.val * 5000 + (x 0).val) (h1 : (i 1).val = (x 1).val) :
    (iblk1 V c 0 t : Vec Ideal S5000x128 .f32) x = (V c main_v41 : S50000x128.Idx → EReal) i := by
  obtain ⟨e0, e1, -⟩ := idx1 t
  unfold iblk1
  rw [View.read_apply]
  show V c main_v41 _ = V c main_v41 _
  congr 1
  funext a
  apply Fin.ext
  match a with
  | ⟨0, _⟩ => show win1_0.index t (0 : Fin 2) * 5000 + 1 * (x 0).val = (i 0).val; omega
  | ⟨1, _⟩ => show win1_0.index t (1 : Fin 2) * 128 + 1 * (x 1).val = (i 1).val; omega

/-- Window 1's block at point t is the same rows of the first layer's output. -/
theorem iblk1_1 (c : Dev nD) (t : Fin cfg1.N) (x : S5000x128.Idx) (i : S50000x128.Idx)
    (h0 : (i 0).val = t.val * 5000 + (x 0).val) (h1 : (i 1).val = (x 1).val) :
    (iblk1 V c 1 t : Vec Ideal S5000x128 .f32) x = (V c main_v28 : S50000x128.Idx → EReal) i := by
  obtain ⟨-, -, e0, e1, -⟩ := idx1 t
  unfold iblk1
  rw [View.read_apply]
  show V c main_v28 _ = V c main_v28 _
  congr 1
  funext a
  apply Fin.ext
  match a with
  | ⟨0, _⟩ => show win1_1.index t (0 : Fin 2) * 5000 + 1 * (x 0).val = (i 0).val; omega
  | ⟨1, _⟩ => show win1_1.index t (1 : Fin 2) * 128 + 1 * (x 1).val = (i 1).val; omega

/-- Window 2's block at every point is the whole left weight matrix. -/
theorem iblk1_2 (c : Dev nD) (t : Fin cfg1.N) (x : S128x64.Idx) :
    (iblk1 V c 2 t : Vec Ideal S128x64 .f32) x = (V c main_v42 : S128x64.Idx → EReal) x := by
  obtain ⟨-, -, -, -, e0, e1, -⟩ := idx1 t
  unfold iblk1
  rw [View.read_apply]
  show V c main_v42 _ = V c main_v42 _
  congr 1
  funext a
  apply Fin.ext
  match a with
  | ⟨0, _⟩ => show win1_2.index t (0 : Fin 2) * 128 + 1 * (x 0).val = (x 0).val; omega
  | ⟨1, _⟩ => show win1_2.index t (1 : Fin 2) * 64 + 1 * (x 1).val = (x 1).val; omega

/-- Window 3's block at every point is the whole bias row. -/
theorem iblk1_3 (c : Dev nD) (t : Fin cfg1.N) (x : S1x64.Idx) :
    (iblk1 V c 3 t : Vec Ideal S1x64 .f32) x = (V c main_v44 : S1x64.Idx → EReal) x := by
  obtain ⟨-, -, -, -, -, -, e0, e1, -⟩ := idx1 t
  unfold iblk1
  rw [View.read_apply]
  show V c main_v44 _ = V c main_v44 _
  congr 1
  funext a
  apply Fin.ext
  match a with
  | ⟨0, _⟩ => show win1_3.index t (0 : Fin 2) * 1 + 1 * (x 0).val = (x 0).val; omega
  | ⟨1, _⟩ => show win1_3.index t (1 : Fin 2) * 64 + 1 * (x 1).val = (x 1).val; omega

/-- Window 4's block at every point is the whole right weight matrix. -/
theorem iblk1_4 (c : Dev nD) (t : Fin cfg1.N) (x : S128x64.Idx) :
    (iblk1 V c 4 t : Vec Ideal S128x64 .f32) x = (V c main_v43 : S128x64.Idx → EReal) x := by
  obtain ⟨-, -, -, -, -, -, -, -, e0, e1, -⟩ := idx1 t
  unfold iblk1
  rw [View.read_apply]
  show V c main_v43 _ = V c main_v43 _
  congr 1
  funext a
  apply Fin.ext
  match a with
  | ⟨0, _⟩ => show win1_4.index t (0 : Fin 2) * 128 + 1 * (x 0).val = (x 0).val; omega
  | ⟨1, _⟩ => show win1_4.index t (1 : Fin 2) * 64 + 1 * (x 1).val = (x 1).val; omega

/-- Layer 2's row function respects equality of each of its arguments. -/
theorem row2_congr {a a' x x' : Fin 128 → EReal} {Wl Wl' Wr Wr' : (⟨2, ![128, 64]⟩ : Shape).Idx → EReal}
    {b b' : Fin 64 → EReal} {q q' : Fin 64} (ha : a = a') (hx : x = x') (hl : Wl = Wl') (hr : Wr = Wr')
    (hb : b = b') (hq : q = q') : row2 a x Wl Wr b q = row2 a' x' Wl' Wr' b' q' := by
  subst ha hx hl hr hb hq; rfl

/-- Layer 2 of the blocks at point t, at row p of the block, is layer 2 of the whole arrays at row 5000 t + p. -/
theorem block1_layer (c : Dev nD) (t : Fin cfg1.N) (x : S5000x64.Idx) (i : S50000x64.Idx)
    (h0 : (i 0).val = t.val * 5000 + (x 0).val) (h1 : (i 1).val = (x 1).val) :
    layer2 (R := 5000) (iblk1 V c 0 t : Vec Ideal S5000x128 .f32) (iblk1 V c 1 t : Vec Ideal S5000x128 .f32)
        (iblk1 V c 2 t : Vec Ideal S128x64 .f32) (iblk1 V c 4 t : Vec Ideal S128x64 .f32)
        (fun q => (iblk1 V c 3 t : Vec Ideal S1x64 .f32) (ix2 0 q)) x
      = layer2 (R := 50000) (V c main_v41) (V c main_v28) (V c main_v42) (V c main_v43)
          (fun q => (V c main_v44 : S1x64.Idx → EReal) (ix2 0 q)) i := by
  show row2 (fun k => (iblk1 V c 0 t : Vec Ideal S5000x128 .f32) (ix2 (x 0) k))
        (fun k => (iblk1 V c 1 t : Vec Ideal S5000x128 .f32) (ix2 (x 0) k))
        (iblk1 V c 2 t : Vec Ideal S128x64 .f32) (iblk1 V c 4 t : Vec Ideal S128x64 .f32)
        (fun q => (iblk1 V c 3 t : Vec Ideal S1x64 .f32) (ix2 0 q)) (x 1)
      = row2 (fun k => (V c main_v41 : S50000x128.Idx → EReal) (ix2 (i 0) k))
        (fun k => (V c main_v28 : S50000x128.Idx → EReal) (ix2 (i 0) k))
        (V c main_v42) (V c main_v43) (fun q => (V c main_v44 : S1x64.Idx → EReal) (ix2 0 q)) (i 1)
  exact row2_congr
    (funext fun k => iblk1_0 V c t (ix2 (x 0) k) (ix2 (i 0) k) h0 rfl)
    (funext fun k => iblk1_1 V c t (ix2 (x 0) k) (ix2 (i 0) k) h0 rfl)
    (funext fun j => iblk1_2 V c t j)
    (funext fun j => iblk1_4 V c t j)
    (funext fun q => iblk1_3 V c t (ix2 0 q))
    (Fin.ext h1.symm)

/-- What point t writes back is block t of layer 2 of the whole arrays. -/
theorem flushed1_eq (c : Dev nD) (t : Fin cfg1.N) :
    (dat1 V c).flushed 5 t = ((cfg1.win 5).blk t).view.read (Elt Ideal)
      (layer2 (R := 50000) (V c main_v41) (V c main_v28) (V c main_v42) (V c main_v43)
          (fun q => (V c main_v44 : S1x64.Idx → EReal) (ix2 0 q))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  rw [Pay.pay2_eq]
  funext y
  obtain ⟨-, -, -, -, -, -, -, -, -, -, e0, e1⟩ := idx1 t
  have hE0 : ((((cfg1.win 5).blk t).view.emb y) 0).val = t.val * 5000 + (((cfg1.win 5).xinj (grid1.coords t) y) 0).val := by
    show win1_5.index t (0 : Fin 2) * 5000 + 1 * (y 0).val = t.val * 5000 + (y 0).val
    omega
  have hE1 : ((((cfg1.win 5).blk t).view.emb y) 1).val = (((cfg1.win 5).xinj (grid1.coords t) y) 1).val := by
    show win1_5.index t (1 : Fin 2) * 64 + 1 * (y 1).val = (y 1).val
    omega
  rw [View.read_apply]
  exact block1_layer V c t ((cfg1.win 5).xinj (grid1.coords t) y) (((cfg1.win 5).blk t).view.emb y) hE0 hE1

/-- Membership in the block of point t, axis by axis. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v45).slice (win1_5.rect t)).set ↔ _
  rw [View.set_slice_whole, Rect.mem_set_unit]
  exact Iff.rfl

/-- Every row of the output array lies in the block of the point numbered by the row divided by 5000. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, -, -, -, -, -, -, e0, e1⟩ := idx1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    rw [e1]; omega

/-- After the second region its output array holds layer 2 of the arrays the region found. -/
theorem final1 (c : Dev nD) :
    (dat1 V c).arrAt 5 cfg1.N
      = layer2 (R := 50000) (V c main_v41) (V c main_v28) (V c main_v42) (V c main_v43)
          (fun q => (V c main_v44 : S1x64.Idx → EReal) (ix2 0 q)) :=
  (dat1 V c).arrAt_eq_of_cover 5 _ (fun t _ => flushed1_eq V c t) cover1

end Cert.KernelIdeal.Blocks

end
-- ==== Proof.Spec.lean ====
/-
  The two-layer network as one function of its inputs, over an unspecified neighbour-mean.

  Given a map `mean` from a [50000, 128] array of node rows to the [50000, 128] array of each node's averaged in-neighbour
  rows, the hidden layer is layer 1 of (mean x, x) and the result is layer 2 of (mean h, h). Both programs compute this
  function; they differ only in how they spell `mean`.
-/
import proofs.«169119_j29841432773038_1_alg».proof.Proof.Rows

noncomputable section

namespace Cert.Sage

open Idealize.ShloMosaic Idealize.ShloMosaic.ValueIdx

/-- The hidden layer: layer 1 of the averaged neighbour rows and the nodes' own rows. -/
def hidden (mean : ((⟨2, ![50000, 128]⟩ : Shape).Idx → EReal) → (⟨2, ![50000, 128]⟩ : Shape).Idx → EReal)
    (x : (⟨2, ![50000, 128]⟩ : Shape).Idx → EReal) (Wl Wr : (⟨2, ![128, 128]⟩ : Shape).Idx → EReal) (b : Fin 128 → EReal) :
    (⟨2, ![50000, 128]⟩ : Shape).Idx → EReal :=
  layer1 (mean x) x Wl Wr b

/-- The network's result: layer 2 of the averaged hidden rows and the hidden rows. -/
def sage (mean : ((⟨2, ![50000, 128]⟩ : Shape).Idx → EReal) → (⟨2, ![50000, 128]⟩ : Shape).Idx → EReal)
    (x : (⟨2, ![50000, 128]⟩ : Shape).Idx → EReal) (W1l W1r : (⟨2, ![128, 128]⟩ : Shape).Idx → EReal) (b1 : Fin 128 → EReal)
    (W2l W2r : (⟨2, ![128, 64]⟩ : Shape).Idx → EReal) (b2 : Fin 64 → EReal) : (⟨2, ![50000, 64]⟩ : Shape).Idx → EReal :=
  layer2 (mean (hidden mean x W1l W1r b1)) (hidden mean x W1l W1r b1) W2l W2r b2

end Cert.Sage

end
-- ==== Proof.KValue.lean ====
/-
  What the idealized kernel computes, read off its run: the two-layer network over the mean spelt as a product.
-/
import proofs.«169119_j29841432773038_1_alg».proof.Proof.Gen.KernelIdeal.Frame
import proofs.«169119_j29841432773038_1_alg».proof.Proof.KBlocks
import proofs.«169119_j29841432773038_1_alg».proof.Proof.Spec
import Idealize.ShloMosaic.Lib.StableHlo.Run
import Idealize.ShloMosaic.Lib.ValueIdx
import Idealize.ShloMosaic.Lib.ValueLayout

set_option maxRecDepth 16384

noncomputable section

namespace Cert.KernelIdeal.KV

open Cert.KernelIdeal Cert.KernelIdeal.Gen Cert.Sage
open Idealize.ShloMosaic Idealize.ShloMosaic.TcCoe Idealize.ShloMosaic.ValueIdx Idealize.SL.Sem

/-- The destination node of every edge, as the column of scatter indices: row 1 of the edge list. -/
def dstIdx (E : IVec S2x600000 32) : IVec S600000x1 32 :=
  broadcastInDim S600000x1 ![0] bcast_S600000_S600000x1_0
    (shapeCast S600000 (extractStridedSlice S1x600000 ![1, 0] E slices_S2x600000_S1x600000_1_0) shapeCasts_S1x600000_S600000)

/-- The source node of every edge, as the column of gather indices: row 0 of the edge list, a negative entry moved up by the
    number of nodes. -/
def srcIdx (E : IVec S2x600000 32) : IVec S600000x1 32 :=
  broadcastInDim S600000x1 ![0] bcast_S600000_S600000x1_0
    (select
      (cmpi .slt (shapeCast S600000 (extractStridedSlice S1x600000 ![0, 0] E slices_S2x600000_S1x600000_0_0) shapeCasts_S1x600000_S600000)
        (broadcastInDim S600000 ![] bcast_S_S600000 (constantI S_ 32 0#32)))
      (addi (shapeCast S600000 (extractStridedSlice S1x600000 ![0, 0] E slices_S2x600000_S1x600000_0_0) shapeCasts_S1x600000_S600000)
        (broadcastInDim S600000 ![] bcast_S_S600000 (constantI S_ 32 50000#32)))
      (shapeCast S600000 (extractStridedSlice S1x600000 ![0, 0] E slices_S2x600000_S1x600000_0_0) shapeCasts_S1x600000_S600000))

/-- Each node's in-degree: ones scattered onto the destinations. -/
def cnt (E : IVec S2x600000 32) : FVec Ideal S50000 .f32 :=
  Host.scatterAdd scatter_S50000_S600000x1_S600000_n_0_0_1
    (broadcastInDim S50000 ![] bcast_S_S50000 (constant S_ .f32 0x00000000#32)) (dstIdx E)
    (broadcastInDim S600000 ![] bcast_S_S600000 (constant S_ .f32 0x3F800000#32))

/-- Each node's summed in-neighbour rows: the source rows gathered, scattered onto the destinations. -/
def agg (E : IVec S2x600000 32) (X : FVec Ideal S50000x128 .f32) : FVec Ideal S50000x128 .f32 :=
  Host.scatterAdd scatter_S50000x128_S600000x1_S600000x128_1_0_0_1
    (broadcastInDim S50000x128 ![] bcast_S_S50000x128 (constant S_ .f32 0x00000000#32)) (dstIdx E)
    (Host.gather gather_S50000x128_S600000x1_S600000x128_1_0_n_n_0_1_1128 X (srcIdx E))

/-- The reciprocal of each node's in-degree, the degree taken as at least one. -/
def inv (E : IVec S2x600000 32) : FVec Ideal S50000 .f32 :=
  Host.divf (broadcastInDim S50000 ![] bcast_S_S50000 (constant S_ .f32 0x3F800000#32))
    (maximumf (cnt E) (broadcastInDim S50000 ![] bcast_S_S50000 (constant S_ .f32 0x3F800000#32)))

/-- The mean over in-neighbours as this program spells it: the summed rows times the reciprocal degree. -/
def mean (E : IVec S2x600000 32) (X : FVec Ideal S50000x128 .f32) : FVec Ideal S50000x128 .f32 :=
  mulf (agg E X) (broadcastInDim S50000x128 ![0, 1] bcast_S50000x1_S50000x128_0_1 (broadcastInDim S50000x1 ![0] bcast_S50000_S50000x1_0 (inv E)))

variable (m : (ℓ : Loc nD τ sig) → Buf (Elt Ideal) ℓ) (ρ : Dev nD → PrngReg) (c : Dev nD)

/-! ## The first host stretch: what the first region finds -/

set_option maxHeartbeats 4000000 in
/-- The aggregated input of the first region is the mean of the node features. -/
theorem V1_v24 : (V1 m ρ c main_v24 : S50000x128.Idx → EReal)
    = mean (m ((c.tc : Thread nD τ).loc main_arg1)) (m ((c.tc : Thread nD τ).loc main_arg0)) := by
  show StableHlo.after hostOps0 (W0 m ρ c) (Proc.devRef .tc main_v24) = _
  dsimp only [hostOps0]
  after_results_simp <;> rfl

set_option maxHeartbeats 4000000 in
/-- The first region reads the node features themselves. -/
theorem V1_arg0 : (V1 m ρ c main_arg0 : S50000x128.Idx → EReal) = m ((c.tc : Thread nD τ).loc main_arg0) := by
  show StableHlo.after hostOps0 (W0 m ρ c) (Proc.devRef .tc main_arg0) = _
  dsimp only [hostOps0]
  after_results_simp <;> rfl

set_option maxHeartbeats 4000000 in
/-- Its left weights are the first left weight matrix transposed. -/
theorem V1_v25 : (V1 m ρ c main_v25 : S128x128.Idx → EReal)
    = transpose S128x128 [1, 0] (m ((c.tc : Thread nD τ).loc main_arg2)) transposes_S128x128_S128x128_1_0 := by
  show StableHlo.after hostOps0 (W0 m ρ c) (Proc.devRef .tc main_v25) = _
  dsimp only [hostOps0]
  after_results_simp <;> rfl

set_option maxHeartbeats 4000000 in
/-- Its right weights are the first right weight matrix transposed. -/
theorem V1_v26 : (V1 m ρ c main_v26 : S128x128.Idx → EReal)
    = transpose S128x128 [1, 0] (m ((c.tc : Thread nD τ).loc main_arg4)) transposes_S128x128_S128x128_1_0 := by
  show StableHlo.after hostOps0 (W0 m ρ c) (Proc.devRef .tc main_v26) = _
  dsimp only [hostOps0]
  after_results_simp <;> rfl

set_option maxHeartbeats 4000000 in
/-- Its bias row is the first bias vector as a one-row array. -/
theorem V1_v27 : (V1 m ρ c main_v27 : S1x128.Idx → EReal)
    = shapeCast S1x128 (m ((c.tc : Thread nD τ).loc main_arg3)) shapeCasts_S128_S1x128 := by
  show StableHlo.after hostOps0 (W0 m ρ c) (Proc.devRef .tc main_v27) = _
  dsimp only [hostOps0]
  after_results_simp <;> rfl

/-- The bias row read at feature q is the bias vector at q. -/
theorem bias1 : (fun q : Fin 128 => (V1 m ρ c main_v27 : S1x128.Idx → EReal) (ix2 0 q))
    = fun q : Fin 128 => (m (((c.tc : Thread nD τ).loc main_arg3)) : S128.Idx → EReal) (ix1 q) := by
  funext q
  rw [V1_v27]
  exact shapeCast_a_1a_apply _ _ 0 q

/-! ## The first region: the hidden layer -/

/-- The hidden layer as this program computes it. -/
def hid : S50000x128.Idx → EReal :=
  Cert.Sage.hidden (mean (m (((c.tc : Thread nD τ).loc main_arg1)))) (m (((c.tc : Thread nD τ).loc main_arg0)))
    (transpose S128x128 [1, 0] (m (((c.tc : Thread nD τ).loc main_arg2))) transposes_S128x128_S128x128_1_0)
    (transpose S128x128 [1, 0] (m (((c.tc : Thread nD τ).loc main_arg4))) transposes_S128x128_S128x128_1_0)
    (fun q => (m (((c.tc : Thread nD τ).loc main_arg3)) : S128.Idx → EReal) (ix1 q))

/-- After the first region its output array holds the hidden layer. -/
theorem W2_v28 : (W2 m ρ c (Proc.devRef .tc main_v28) : S50000x128.Idx → EReal) = hid m c := by
  refine (W2_arr m ρ c 5).trans ?_
  refine (Blocks.final0 (V1 m ρ) c).trans ?_
  unfold hid Cert.Sage.hidden
  rw [V1_v24, V1_arg0, V1_v25, V1_v26, bias1]

/-! ## What the second host stretch reads of the first: carried across the first region unchanged -/

set_option maxHeartbeats 4000000 in
theorem W2_v1 : (W2 m ρ c (Proc.devRef .tc main_v1) : S600000.Idx → BitVec 32)
    = shapeCast S600000 (extractStridedSlice S1x600000 ![0, 0] (m (((c.tc : Thread nD τ).loc main_arg1))) slices_S2x600000_S1x600000_0_0) shapeCasts_S1x600000_S600000 := by
  refine (W2_of_ne m ρ c main_v1 (by decide)).trans ?_
  show StableHlo.after hostOps0 (W0 m ρ c) (Proc.devRef .tc main_v1) = _
  dsimp only [hostOps0]
  after_results_simp <;> rfl

set_option maxHeartbeats 4000000 in
theorem W2_v3 : (W2 m ρ c (Proc.devRef .tc main_v3) : S600000.Idx → BitVec 32)
    = shapeCast S600000 (extractStridedSlice S1x600000 ![1, 0] (m (((c.tc : Thread nD τ).loc main_arg1))) slices_S2x600000_S1x600000_1_0) shapeCasts_S1x600000_S600000 := by
  refine (W2_of_ne m ρ c main_v3 (by decide)).trans ?_
  show StableHlo.after hostOps0 (W0 m ρ c) (Proc.devRef .tc main_v3) = _
  dsimp only [hostOps0]
  after_results_simp <;> rfl

set_option maxHeartbeats 4000000 in
theorem W2_v11 : (W2 m ρ c (Proc.devRef .tc main_v11) : S50000.Idx → EReal) = inv (m (((c.tc : Thread nD τ).loc main_arg1))) := by
  refine (W2_of_ne m ρ c main_v11 (by decide)).trans ?_
  show StableHlo.after hostOps0 (W0 m ρ c) (Proc.devRef .tc main_v11) = _
  dsimp only [hostOps0]
  after_results_simp <;> rfl

set_option maxHeartbeats 4000000 in
theorem W2_arg5 : (W2 m ρ c (Proc.devRef .tc main_arg5) : S64x128.Idx → EReal) = m (((c.tc : Thread nD τ).loc main_arg5)) := by
  refine (W2_of_ne m ρ c main_arg5 (by decide)).trans ?_
  show StableHlo.after hostOps0 (W0 m ρ c) (Proc.devRef .tc main_arg5) = _
  dsimp only [hostOps0]
  after_results_simp <;> rfl

set_option maxHeartbeats 4000000 in
theorem W2_arg6 : (W2 m ρ c (Proc.devRef .tc main_arg6) : S64.Idx → EReal) = m (((c.tc : Thread nD τ).loc main_arg6)) := by
  refine (W2_of_ne m ρ c main_arg6 (by decide)).trans ?_
  show StableHlo.after hostOps0 (W0 m ρ c) (Proc.devRef .tc main_arg6) = _
  dsimp only [hostOps0]
  after_results_simp <;> rfl

set_option maxHeartbeats 4000000 in
theorem W2_arg7 : (W2 m ρ c (Proc.devRef .tc main_arg7) : S64x128.Idx → EReal) = m (((c.tc : Thread nD τ).loc main_arg7)) := by
  refine (W2_of_ne m ρ c main_arg7 (by decide)).trans ?_
  show StableHlo.after hostOps0 (W0 m ρ c) (Proc.devRef .tc main_arg7) = _
  dsimp only [hostOps0]
  after_results_simp <;> rfl

/-! ## The second host stretch: what the second region finds -/

set_option maxHeartbeats 4000000 in
/-- The aggregated input of the second region is the mean of the hidden rows. -/
theorem V3_v41 : (V3 m ρ c main_v41 : S50000x128.Idx → EReal) = mean (m (((c.tc : Thread nD τ).loc main_arg1))) (hid m c) := by
  show StableHlo.after hostOps1 (W2 m ρ c) (Proc.devRef .tc main_v41) = _
  dsimp only [hostOps1]
  after_results_simp
  rw [W2_v1, W2_v3, W2_v11, W2_v28]
  rfl

set_option maxHeartbeats 4000000 in
/-- The second region reads the hidden rows themselves. -/
theorem V3_v28 : (V3 m ρ c main_v28 : S50000x128.Idx → EReal) = hid m c := by
  show StableHlo.after hostOps1 (W2 m ρ c) (Proc.devRef .tc main_v28) = _
  dsimp only [hostOps1]
  after_results_simp
  exact W2_v28 m ρ c

set_option maxHeartbeats 4000000 in
theorem V3_v42 : (V3 m ρ c main_v42 : S128x64.Idx → EReal)
    = transpose S128x64 [1, 0] (m (((c.tc : Thread nD τ).loc main_arg5))) transposes_S64x128_S128x64_1_0 := by
  show StableHlo.after hostOps1 (W2 m ρ c) (Proc.devRef .tc main_v42) = _
  dsimp only [hostOps1]
  after_results_simp
  rw [W2_arg5]

set_option maxHeartbeats 4000000 in
theorem V3_v43 : (V3 m ρ c main_v43 : S128x64.Idx → EReal)
    = transpose S128x64 [1, 0] (m (((c.tc : Thread nD τ).loc main_arg7))) transposes_S64x128_S128x64_1_0 := by
  show StableHlo.after hostOps1 (W2 m ρ c) (Proc.devRef .tc main_v43) = _
  dsimp only [hostOps1]
  after_results_simp
  rw [W2_arg7]

set_option maxHeartbeats 4000000 in
theorem V3_v44 : (V3 m ρ c main_v44 : S1x64.Idx → EReal)
    = shapeCast S1x64 (m (((c.tc : Thread nD τ).loc main_arg6))) shapeCasts_S64_S1x64 := by
  show StableHlo.after hostOps1 (W2 m ρ c) (Proc.devRef .tc main_v44) = _
  dsimp only [hostOps1]
  after_results_simp
  rw [W2_arg6]
  rfl

theorem bias2 : (fun q : Fin 64 => (V3 m ρ c main_v44 : S1x64.Idx → EReal) (ix2 0 q))
    = fun q : Fin 64 => (m (((c.tc : Thread nD τ).loc main_arg6)) : S64.Idx → EReal) (ix1 q) := by
  funext q
  rw [V3_v44]
  exact shapeCast_a_1a_apply _ _ 0 q

/-- THE KERNEL'S RESULT: after the second region the result array holds the network's function of the arguments. -/
theorem kernel_value :
    W4 m ρ c (Proc.devRef .tc main_v45)
      = sage (mean (m ((c.tc : Thread nD τ).loc main_arg1))) (m ((c.tc : Thread nD τ).loc main_arg0))
        (transpose S128x128 [1, 0] (m ((c.tc : Thread nD τ).loc main_arg2)) transposes_S128x128_S128x128_1_0)
        (transpose S128x128 [1, 0] (m ((c.tc : Thread nD τ).loc main_arg4)) transposes_S128x128_S128x128_1_0)
        (fun q => (m ((c.tc : Thread nD τ).loc main_arg3) : S128.Idx → EReal) (ix1 q))
        (transpose S128x64 [1, 0] (m ((c.tc : Thread nD τ).loc main_arg5)) transposes_S64x128_S128x64_1_0)
        (transpose S128x64 [1, 0] (m ((c.tc : Thread nD τ).loc main_arg7)) transposes_S64x128_S128x64_1_0)
        (fun q => (m ((c.tc : Thread nD τ).loc main_arg6) : S64.Idx → EReal) (ix1 q)) := by
  refine (W4_arr m ρ c 5).trans ?_
  refine (Blocks.final1 (V3 m ρ) c).trans ?_
  unfold sage
  rw [V3_v41, V3_v28, V3_v42, V3_v43, bias2]
  rfl

end Cert.KernelIdeal.KV

end
-- ==== Proof.RefArgs.lean ====
/-
  The reference program writes none of its argument arrays: after its operations each argument buffer holds what it was
  launched with.
-/
import proofs.«169119_j29841432773038_1_alg».proof.Proof.RefRun
import Idealize.ShloMosaic.Lib.StableHlo.Run

set_option maxRecDepth 8192

noncomputable section

namespace Cert.ReferenceIdeal.Args

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxHeartbeats 4000000 in
theorem kept0 : after (ops (F := F)) (launchContents m c) (Proc.devRef .tc main_arg0) = m ((c.tc : Thread nD τ).loc main_arg0) := by
  dsimp only [ops]
  after_results_simp <;> rfl

set_option maxHeartbeats 4000000 in
theorem kept1 : after (ops (F := F)) (launchContents m c) (Proc.devRef .tc main_arg1) = m ((c.tc : Thread nD τ).loc main_arg1) := by
  dsimp only [ops]
  after_results_simp <;> rfl

set_option maxHeartbeats 4000000 in
theorem kept2 : after (ops (F := F)) (launchContents m c) (Proc.devRef .tc main_arg2) = m ((c.tc : Thread nD τ).loc main_arg2) := by
  dsimp only [ops]
  after_results_simp <;> rfl

set_option maxHeartbeats 4000000 in
theorem kept3 : after (ops (F := F)) (launchContents m c) (Proc.devRef .tc main_arg3) = m ((c.tc : Thread nD τ).loc main_arg3) := by
  dsimp only [ops]
  after_results_simp <;> rfl

set_option maxHeartbeats 4000000 in
theorem kept4 : after (ops (F := F)) (launchContents m c) (Proc.devRef .tc main_arg4) = m ((c.tc : Thread nD τ).loc main_arg4) := by
  dsimp only [ops]
  after_results_simp <;> rfl

set_option maxHeartbeats 4000000 in
theorem kept5 : after (ops (F := F)) (launchContents m c) (Proc.devRef .tc main_arg5) = m ((c.tc : Thread nD τ).loc main_arg5) := by
  dsimp only [ops]
  after_results_simp <;> rfl

set_option maxHeartbeats 4000000 in
theorem kept6 : after (ops (F := F)) (launchContents m c) (Proc.devRef .tc main_arg6) = m ((c.tc : Thread nD τ).loc main_arg6) := by
  dsimp only [ops]
  after_results_simp <;> rfl

set_option maxHeartbeats 4000000 in
theorem kept7 : after (ops (F := F)) (launchContents m c) (Proc.devRef .tc main_arg7) = m ((c.tc : Thread nD τ).loc main_arg7) := by
  dsimp only [ops]
  after_results_simp <;> rfl

end Cert.ReferenceIdeal.Args

end
-- ==== Proof.RefValue.lean ====
/-
  What the reference computes, read off its run: the two-layer network over the mean spelt as a quotient.
-/
import proofs.«169119_j29841432773038_1_alg».proof.Proof.RefRun
import proofs.«169119_j29841432773038_1_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.Lib.Pipeline.Frame
import proofs.«169119_j29841432773038_1_alg».proof.Proof.RowOps
import proofs.«169119_j29841432773038_1_alg».proof.Proof.LibMatmul

noncomputable section

namespace Cert.ReferenceIdeal.RV

open Cert.ReferenceIdeal Cert.ReferenceIdeal.Gen Cert.Sage
open Idealize.ShloMosaic Idealize.ShloMosaic.TcCoe Idealize.ShloMosaic.ValueIdx Idealize.SL.Sem Idealize.ShloMosaic.StableHlo

/-- The destination node of every edge, as the column of scatter indices: row 1 of the edge list. -/
def dstIdx (E : IVec S2x600000 32) : IVec S600000x1 32 :=
  broadcastInDim S600000x1 ![0] bcast_S600000_S600000x1_0
    (shapeCast S600000 (extractStridedSlice S1x600000 ![1, 0] E slices_S2x600000_S1x600000_1_0) shapeCasts_S1x600000_S600000)

/-- The source node of every edge, as the column of gather indices: row 0 of the edge list, a negative entry moved up by the
    number of nodes. -/
def srcIdx (E : IVec S2x600000 32) : IVec S600000x1 32 :=
  broadcastInDim S600000x1 ![0] bcast_S600000_S600000x1_0
    (select
      (cmpi .slt (shapeCast S600000 (extractStridedSlice S1x600000 ![0, 0] E slices_S2x600000_S1x600000_0_0) shapeCasts_S1x600000_S600000)
        (broadcastInDim S600000 ![] bcast_S_S600000 (constantI S_ 32 0#32)))
      (addi (shapeCast S600000 (extractStridedSlice S1x600000 ![0, 0] E slices_S2x600000_S1x600000_0_0) shapeCasts_S1x600000_S600000)
        (broadcastInDim S600000 ![] bcast_S_S600000 (constantI S_ 32 50000#32)))
      (shapeCast S600000 (extractStridedSlice S1x600000 ![0, 0] E slices_S2x600000_S1x600000_0_0) shapeCasts_S1x600000_S600000))

/-- Each node's in-degree: ones scattered onto the destinations. -/
def cnt (E : IVec S2x600000 32) : FVec Ideal S50000 .f32 :=
  Host.scatterAdd scatter_S50000_S600000x1_S600000_n_0_0_1
    (broadcastInDim S50000 ![] bcast_S_S50000 (constant S_ .f32 0x00000000#32)) (dstIdx E)
    (broadcastInDim S600000 ![] bcast_S_S600000 (constant S_ .f32 0x3F800000#32))

/-- Each node's summed in-neighbour rows: the source rows gathered, scattered onto the destinations. -/
def agg (E : IVec S2x600000 32) (X : FVec Ideal S50000x128 .f32) : FVec Ideal S50000x128 .f32 :=
  Host.scatterAdd scatter_S50000x128_S600000x1_S600000x128_1_0_0_1
    (broadcastInDim S50000x128 ![] bcast_S_S50000x128 (constant S_ .f32 0x00000000#32)) (dstIdx E)
    (Host.gather gather_S50000x128_S600000x1_S600000x128_1_0_n_n_0_1_1128 X (srcIdx E))

/-- The mean over in-neighbours as this program spells it: the summed rows divided by the degree, taken as at least one. -/
def mean (E : IVec S2x600000 32) (X : FVec Ideal S50000x128 .f32) : FVec Ideal S50000x128 .f32 :=
  Host.divf (agg E X) (broadcastInDim S50000x128 ![0, 1] bcast_S50000x1_S50000x128_0_1 (broadcastInDim S50000x1 ![0] bcast_S50000_S50000x1_0
    (maximumf (cnt E) (broadcastInDim S50000 ![] bcast_S_S50000 (constant S_ .f32 0x3F800000#32)))))

section Stages

variable {F : FTy → Type} [FloatOps F]

/-- Operations 1 to 40: the edge list's two rows, the first mean, and layer 1 up to its clamp at zero. -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_1 (constant S_ .f32 0x3F800000#32),
    unary main_cst_1 main_v14 (broadcastInDim S600000 ![] bcast_S_S600000 : (⟨S_, .f32⟩ : BufTy).Contents (Elt F) → (⟨S600000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S600000x1 ![0] bcast_S600000_S600000x1_0 : (⟨S600000, .i32⟩ : BufTy).Contents (Elt F) → (⟨S600000x1, .i32⟩ : BufTy).Contents (Elt F)),
    ternary main_v15 main_v16 main_v14 main_v17 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v30) (TRef.of (T := ⟨S50000x128, .f32⟩) main_call0_v0) (TRef.of (T := ⟨S50000x128, .f32⟩) main_v31) maximumf ]

/-- Operations 41 to 73: the second mean and layer 2's affine part. -/
abbrev opsB : List (HloOp τ sig (Elt F)) :=
  [ nullary main_c_4 (constantI S_ 32 0#32),
    unary main_c_4 main_v32 (broadcastInDim S600000 ![] bcast_S_S600000 : (⟨S_, .i32⟩ : BufTy).Contents (Elt F) → (⟨S600000, .i32⟩ : BufTy).Contents (Elt F)),
    binary main_v1 main_v32 main_v33 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v34 (broadcastInDim S600000 ![] bcast_S_S600000 : (⟨S_, .i32⟩ : BufTy).Contents (Elt F) → (⟨S600000, .i32⟩ : BufTy).Contents (Elt F)),
    binary main_v1 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v1 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v31 main_v37 main_v38 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_6 (constant S_ .f32 0x00000000#32),
    unary main_cst_6 main_v39 (broadcastInDim S50000x128 ![] bcast_S_S50000x128 : (⟨S_, .f32⟩ : BufTy).Contents (Elt F) → (⟨S50000x128, .f32⟩ : BufTy).Contents (Elt F)),
    unary main_v3 main_v40 (broadcastInDim S600000x1 ![0] bcast_S600000_S600000x1_0 : (⟨S600000, .i32⟩ : BufTy).Contents (Elt F) → (⟨S600000x1, .i32⟩ : BufTy).Contents (Elt F)),
    ternary main_v39 main_v40 main_v38 main_v41 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_7 (constant S_ .f32 0x3F800000#32),
    unary main_cst_7 main_v42 (broadcastInDim S600000 ![] bcast_S_S600000 : (⟨S_, .f32⟩ : BufTy).Contents (Elt F) → (⟨S600000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S600000x1 ![0] bcast_S600000_S600000x1_0 : (⟨S600000, .i32⟩ : BufTy).Contents (Elt F) → (⟨S600000x1, .i32⟩ : BufTy).Contents (Elt F)),
    ternary main_v43 main_v44 main_v42 main_v45 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v41 main_v49 main_v50 (Host.divf : (⟨S50000x128, .f32⟩ : BufTy).Contents (Elt F) → (⟨S50000x128, .f32⟩ : BufTy).Contents (Elt F) → (⟨S50000x128, .f32⟩ : BufTy).Contents (Elt F)),
    unary main_arg5 main_v51 ((transpose S128x64 [1, 0] · transposes_S64x128_S128x64_1_0) : (⟨S64x128, .f32⟩ : BufTy).Contents (Elt F) → (⟨S128x64, .f32⟩ : BufTy).Contents (Elt F)),
    binary main_v50 main_v51 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v52 main_v54 main_v55 (addf : (⟨S50000x64, .f32⟩ : BufTy).Contents (Elt F) → (⟨S50000x64, .f32⟩ : BufTy).Contents (Elt F) → (⟨S50000x64, .f32⟩ : BufTy).Contents (Elt F)),
    unary main_arg7 main_v56 ((transpose S128x64 [1, 0] · transposes_S64x128_S128x64_1_0) : (⟨S64x128, .f32⟩ : BufTy).Contents (Elt F) → (⟨S128x64, .f32⟩ : BufTy).Contents (Elt F)),
    binary main_v31 main_v56 main_v57 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)) ]

/-- Operations 74 to 88: the log-softmax of the rows. -/
abbrev opsC : List (HloOp τ sig (Elt F)) :=
  [ TRef.nullary (TRef.of (T := ⟨S_, .f32⟩) main_call1_cst) (constant S_ .f32 0xFF800000#32),
    TRef.binary (TRef.of (T := ⟨S50000x64, .f32⟩) main_v58) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v58) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v59) subf ]

set_option maxRecDepth 8192 in
/-- The program's operation list is the three stretches in order. -/
theorem ops_split : (Cert.ReferenceIdeal.ValueP.ops (F := F)) = opsA ++ (opsB ++ opsC) := rfl

end Stages

/-! ## The host operations of one layer, read at an index -/

/-- A bias vector laid along a row and then repeated down the rows reads, at (p, q), the vector at q. -/
theorem bias_apply {R D : Nat} (b : (⟨1, ![D]⟩ : Shape).Idx → EReal)
    (h1 : (⟨1, ![D]⟩ : Shape).BroadcastsInDim ⟨2, ![1, D]⟩ (![1] : Fin 1 → Fin 2))
    (h2 : (⟨2, ![1, D]⟩ : Shape).BroadcastsInDim ⟨2, ![R, D]⟩ (![0, 1] : Fin 2 → Fin 2)) (p : Fin R) (q : Fin D) :
    broadcastInDim ⟨2, ![R, D]⟩ ![0, 1] h2 (broadcastInDim ⟨2, ![1, D]⟩ ![1] h1 b) (ix2 p q) = b (ix1 q) := by
  have hq : (if D = 1 then 0 else q.val) = q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq.symm)]
  exact broadcastInDim_apply ![1] h1 b (ix2 (0 : Fin 1) q) (ix1 q) (fun a => by
    match a with
    | ⟨0, _⟩ => exact hq.symm)

/-- THE AFFINE PART OF A LAYER AS THE HOST SPELLS IT, read at (p, q): the aggregated rows through the left weights, plus
    the bias, plus the nodes' own rows through the right weights. -/
theorem host_affine_apply {D : Nat} (A X : FVec Ideal ⟨2, ![50000, 128]⟩ .f32) (Wl Wr : FVec Ideal ⟨2, ![128, D]⟩ .f32)
    (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![50000, D]⟩ (![0, 1] : Fin 2 → Fin 2)) (p : Fin 50000) (q : Fin D) :
    addf (addf (FloatOps.dotGeneral (DotDims.plain 50000 128 D) none .single A Wl)
        (broadcastInDim ⟨2, ![50000, D]⟩ ![0, 1] h2 (broadcastInDim ⟨2, ![1, D]⟩ ![1] h1 b)))
      (FloatOps.dotGeneral (DotDims.plain 50000 128 D) none .single X Wr) (ix2 p q)
      = affine (fun k => A (ix2 p k)) (fun k => X (ix2 p k)) Wl Wr (fun q => b (ix1 q)) q := by
  rw [addf_apply, addf_apply, Cert.Matmul.dotGeneral_plain_apply, Cert.Matmul.dotGeneral_plain_apply]
  unfold affine
  exact congrArg (fun t => ((∑ k : Fin 128, A (ix2 p k) * Wl (ix2 k q)) + t) + ∑ k : Fin 128, X (ix2 p k) * Wr (ix2 k q))
    (bias_apply b h1 h2 p q)

/-- LAYER 1 AS THE HOST SPELLS IT: the affine part clamped below by the zero constant is layer 1 of the rows. -/
theorem host_layer1 (A X : FVec Ideal S50000x128 .f32) (Wl Wr : FVec Ideal S128x128 .f32) (b : FVec Ideal S128 .f32) :
    maximumf (addf (addf (Host.dotGeneral dot_S50000x128_S128x128_S50000x128_1_0_0_1_n_n none A Wl)
          (broadcastInDim S50000x128 ![0, 1] bcast_S1x128_S50000x128_0_1 (broadcastInDim S1x128 ![1] bcast_S128_S1x128_1 b)))
        (Host.dotGeneral dot_S50000x128_S128x128_S50000x128_1_0_0_1_n_n none X Wr))
      (broadcastInDim S50000x128 ![] bcast_S_S50000x128 (constant (F := Ideal) S_ .f32 0x00000000#32))
      = layer1 A X Wl Wr (fun q => b (ix1 q)) := by
  funext j
  obtain ⟨p, q, rfl⟩ : ∃ (p : Fin 50000) (q : Fin 128), j = ix2 p q := ⟨j 0, j 1, eq_ix2 j⟩
  rw [maximumf_apply, layer1_apply, broadcastInDim_scalar_apply, constant_apply, Ideal.ofBits_zero_f32]
  unfold row1
  exact congrArg (fun t => max t 0) (host_affine_apply A X Wl Wr b bcast_S128_S1x128_1 bcast_S1x128_S50000x128_0_1 p q)

/-- LAYER 2'S AFFINE PART AS THE HOST SPELLS IT, as the array of affine rows. -/
def affine2 (A X : FVec Ideal S50000x128 .f32) (Wl Wr : FVec Ideal S128x64 .f32) (b : Fin 64 → EReal) : FVec Ideal S50000x64 .f32 :=
  fun j => affine (fun k => A (ix2 (j 0) k)) (fun k => X (ix2 (j 0) k)) Wl Wr b (j 1)

theorem host_affine2 (A X : FVec Ideal S50000x128 .f32) (Wl Wr : FVec Ideal S128x64 .f32) (b : FVec Ideal S64 .f32) :
    addf (addf (Host.dotGeneral dot_S50000x128_S128x64_S50000x64_1_0_0_1_n_n none A Wl)
          (broadcastInDim S50000x64 ![0, 1] bcast_S1x64_S50000x64_0_1 (broadcastInDim S1x64 ![1] bcast_S64_S1x64_1 b)))
        (Host.dotGeneral dot_S50000x128_S128x64_S50000x64_1_0_0_1_n_n none X Wr)
      = affine2 A X Wl Wr (fun q => b (ix1 q)) := by
  funext j
  obtain ⟨p, q, rfl⟩ : ∃ (p : Fin 50000) (q : Fin 64), j = ix2 p q := ⟨j 0, j 1, eq_ix2 j⟩
  exact host_affine_apply A X Wl Wr b bcast_S64_S1x64_1 bcast_S1x64_S50000x64_0_1 p q

/-- The log-softmax of the affine rows is layer 2. -/
theorem logSoftmaxRows_affine2 (A X : FVec Ideal S50000x128 .f32) (Wl Wr : FVec Ideal S128x64 .f32) (b : Fin 64 → EReal) :
    logSoftmaxRows (affine2 A X Wl Wr b) = layer2 A X Wl Wr b := rfl

/-! ## The host's log-softmax of the rows -/

/-- A vector of 50000 entries laid as a column reads, at row p, the vector at p. -/
theorem col_apply {α : Type} (v : S50000.Idx → α) (p : Fin 50000) (u : Fin 1) :
    broadcastInDim S50000x1 ![0] bcast_S50000_S50000x1_0 v (ix2 p u) = v (ix1 p) :=
  broadcastInDim_apply ![0] bcast_S50000_S50000x1_0 v (ix2 p u) (ix1 p) (fun a => by
    match a with
    | ⟨0, _⟩ => rfl)

/-- A column repeated along the 64 features reads, at (p, q), the column at row p. -/
theorem colBcast_apply {α : Type} (v : S50000x1.Idx → α) (p : Fin 50000) (q : Fin 64) :
    broadcastInDim S50000x64 ![0, 1] bcast_S50000x1_S50000x64_0_1 v (ix2 p q) = v (ix2 p (0 : Fin 1)) :=
  broadcastInDim_apply ![0, 1] bcast_S50000x1_S50000x64_0_1 v (ix2 p q) (ix2 p (0 : Fin 1)) (fun a => by
    match a with
    | ⟨0, _⟩ => rfl
    | ⟨1, _⟩ => rfl)

/-- The host's logarithm and exponential act entry by entry. -/
theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl

/-- The reduction over the second axis, as the fact the inserted index is read from. -/
theorem reduces_rows : S50000x64.Reduces [(1 : Fin 2)] S50000 := by decide

/-- The host's row maximum (the reduce with a maximum body from −∞, joined once more with −∞) at row p is the greatest
    entry of the row. -/
theorem host_rowmax_apply (z : FVec Ideal S50000x64 .f32) (p : Fin 50000) :
    maximumf (broadcastInDim S50000 ![] bcast_S_S50000 (constant (F := Ideal) S_ .f32 0xFF800000#32))
        (Host.reduce FloatOps.maximumf z (constant (F := Ideal) S_ .f32 0xFF800000#32) reducesTo_S50000x64_S50000_d1 h_S_) (ix1 p)
      = rowMax (fun k => z (ix2 p k)) := by
  rw [maximumf_apply, broadcastInDim_scalar_apply, constant_apply, ofBits_neg_inf,
    Host.reduce_eq_fold_single FloatOps.maximumf z _ reducesTo_S50000x64_S50000_d1 reduces_rows h_S_ (ix1 p),
    constant_apply, ofBits_neg_inf, max_eq_right bot_le]
  unfold rowMax
  have e : (z ∘ reduces_rows.lift (ix1 p)) = fun k => z (ix2 p k) := funext fun k => congrArg z (lift_row reduces_rows p k)
  rw [e]
  rfl

/-- THE HOST'S COMPOSITION — subtract the row maximum, exponentiate, sum the row, take the logarithm, subtract — is the
    log-softmax of the rows. -/
theorem host_logSoftmax (z : FVec Ideal S50000x64 .f32) :
    subf
      (subf z (broadcastInDim S50000x64 ![0, 1] bcast_S50000x1_S50000x64_0_1 (broadcastInDim S50000x1 ![0] bcast_S50000_S50000x1_0
        (maximumf (broadcastInDim S50000 ![] bcast_S_S50000 (constant (F := Ideal) S_ .f32 0xFF800000#32))
          (Host.reduce FloatOps.maximumf z (constant (F := Ideal) S_ .f32 0xFF800000#32) reducesTo_S50000x64_S50000_d1 h_S_)))))
      (broadcastInDim S50000x64 ![0, 1] bcast_S50000x1_S50000x64_0_1 (Host.log (broadcastInDim S50000x1 ![0] bcast_S50000_S50000x1_0
        (Host.reduceAdd (Host.exp
          (subf z (broadcastInDim S50000x64 ![0, 1] bcast_S50000x1_S50000x64_0_1 (broadcastInDim S50000x1 ![0] bcast_S50000_S50000x1_0
            (maximumf (broadcastInDim S50000 ![] bcast_S_S50000 (constant (F := Ideal) S_ .f32 0xFF800000#32))
              (Host.reduce FloatOps.maximumf z (constant (F := Ideal) S_ .f32 0xFF800000#32) reducesTo_S50000x64_S50000_d1 h_S_))))))
          (constant (F := Ideal) S_ .f32 0x00000000#32) reducesTo_S50000x64_S50000_d1 h_S_))))
      = logSoftmaxRows z := by
  funext j
  obtain ⟨p, q, rfl⟩ : ∃ (p : Fin 50000) (q : Fin 64), j = ix2 p q := ⟨j 0, j 1, eq_ix2 j⟩
  have hM : ∀ q' : Fin 64, broadcastInDim S50000x64 ![0, 1] bcast_S50000x1_S50000x64_0_1 (broadcastInDim S50000x1 ![0] bcast_S50000_S50000x1_0
        (maximumf (broadcastInDim S50000 ![] bcast_S_S50000 (constant (F := Ideal) S_ .f32 0xFF800000#32))
          (Host.reduce FloatOps.maximumf z (constant (F := Ideal) S_ .f32 0xFF800000#32) reducesTo_S50000x64_S50000_d1 h_S_))) (ix2 p q')
      = rowMax (fun k => z (ix2 p k)) := fun q' => by
    rw [colBcast_apply, col_apply]
    exact host_rowmax_apply z p
  rw [subf_apply, subf_apply, hM, colBcast_apply]
  rw [hostLog_apply, col_apply, hostReduceAdd_apply, Ideal.hostReduceAdd_single reducesTo_S50000x64_S50000_d1 reduces_rows, constant_apply,
    Ideal.ofBits_zero_f32, zero_add]
  unfold logSoftmaxRows logSoftmaxRow
  refine congrArg (fun s => (z (ix2 p q) - rowMax fun k => z (ix2 p k)) - Ideal.log s) (Finset.sum_congr rfl fun (k : Fin 64) _ => ?_)
  rw [lift_row reduces_rows p k, hostExp_apply, subf_apply]
  exact congrArg (fun t => Ideal.exp (z (ix2 p k) - t)) (hM k)

/-- Contents moved to a typed reference's buffer type and back are the contents. -/
theorem ofBuf_toBuf {T : BufTy} (x : TRef sig T) (v : T.Contents (Elt Ideal)) : x.ofBuf (x.toBuf v) = v := by
  obtain ⟨r, h, a, b⟩ := x
  subst h
  rfl

/-! ## The three stretches, each read at the buffers the next one takes over -/

section Read

variable (V : Valuation τ sig (Elt Ideal))

set_option maxHeartbeats 4000000 in
/-- After the first stretch the first reshaped row of the edge list is row 0. -/
theorem stageA_v1 :
    after (opsA (F := Ideal)) V (Proc.devRef .tc main_v1)
      = shapeCast S600000 (extractStridedSlice S1x600000 ![0, 0] (V (Proc.devRef .tc main_arg1)) slices_S2x600000_S1x600000_0_0)
          shapeCasts_S1x600000_S600000 := by
  dsimp only [opsA]
  after_results_simp
  rfl

set_option maxHeartbeats 4000000 in
/-- After the first stretch the second reshaped row of the edge list is row 1. -/
theorem stageA_v3 :
    after (opsA (F := Ideal)) V (Proc.devRef .tc main_v3)
      = shapeCast S600000 (extractStridedSlice S1x600000 ![1, 0] (V (Proc.devRef .tc main_arg1)) slices_S2x600000_S1x600000_1_0)
          shapeCasts_S1x600000_S600000 := by
  dsimp only [opsA]
  after_results_simp
  rfl

set_option maxHeartbeats 4000000 in
/-- The first stretch leaves layer 2's three arguments as they were. -/
theorem stageA_arg5 : after (opsA (F := Ideal)) V (Proc.devRef .tc main_arg5) = V (Proc.devRef .tc main_arg5) := by
  dsimp only [opsA]
  after_results_simp

set_option maxHeartbeats 4000000 in
theorem stageA_arg6 : after (opsA (F := Ideal)) V (Proc.devRef .tc main_arg6) = V (Proc.devRef .tc main_arg6) := by
  dsimp only [opsA]
  after_results_simp

set_option maxHeartbeats 4000000 in
theorem stageA_arg7 : after (opsA (F := Ideal)) V (Proc.devRef .tc main_arg7) = V (Proc.devRef .tc main_arg7) := by
  dsimp only [opsA]
  after_results_simp

set_option maxHeartbeats 4000000 in
/-- After the first stretch the clamped sum is the hidden layer of the arguments. -/
theorem stageA_v31 :
    after (opsA (F := Ideal)) V (Proc.devRef .tc main_v31)
      = Cert.Sage.hidden (mean (V (Proc.devRef .tc main_arg1))) (V (Proc.devRef .tc main_arg0))
          (transpose S128x128 [1, 0] (V (Proc.devRef .tc main_arg2)) transposes_S128x128_S128x128_1_0)
          (transpose S128x128 [1, 0] (V (Proc.devRef .tc main_arg4)) transposes_S128x128_S128x128_1_0)
          (fun q => (V (Proc.devRef .tc main_arg3) : S128.Idx → EReal) (ix1 q)) := by
  dsimp only [opsA]
  after_results_simp
  exact host_layer1 _ _ _ _ _

set_option maxHeartbeats 4000000 in
/-- The second stretch, from contents whose two reshaped rows are the rows of an edge list E: the second affine sum is the
    array of affine rows of the mean of the hidden rows and the hidden rows. -/
theorem stageB_v58 (E : IVec S2x600000 32)
    (h1 : V (Proc.devRef .tc main_v1)
      = shapeCast S600000 (extractStridedSlice S1x600000 ![0, 0] E slices_S2x600000_S1x600000_0_0) shapeCasts_S1x600000_S600000)
    (h3 : V (Proc.devRef .tc main_v3)
      = shapeCast S600000 (extractStridedSlice S1x600000 ![1, 0] E slices_S2x600000_S1x600000_1_0) shapeCasts_S1x600000_S600000) :
    after (opsB (F := Ideal)) V (Proc.devRef .tc main_v58)
      = affine2 (mean E (V (Proc.devRef .tc main_v31))) (V (Proc.devRef .tc main_v31))
          (transpose S128x64 [1, 0] (V (Proc.devRef .tc main_arg5)) transposes_S64x128_S128x64_1_0)
          (transpose S128x64 [1, 0] (V (Proc.devRef .tc main_arg7)) transposes_S64x128_S128x64_1_0)
          (fun q => (V (Proc.devRef .tc main_arg6) : S64.Idx → EReal) (ix1 q)) := by
  dsimp only [opsB]
  after_results_simp
  rw [h1, h3]
  exact host_affine2 _ _ _ _ _

set_option maxHeartbeats 4000000 in
/-- The third stretch: the result is the log-softmax of the rows of the second affine sum. -/
theorem stageC_v59 :
    after (opsC (F := Ideal)) V (Proc.devRef .tc main_v59) = logSoftmaxRows (V (Proc.devRef .tc main_v58)) := by
  dsimp only [opsC]
  after_results_simp
  simp only [ofBuf_toBuf]
  exact host_logSoftmax _

end Read

/-- THE REFERENCE'S RESULT: after its 88 operations the result buffer holds the network's function of the arguments. -/
theorem ref_value (m : (ℓ : Loc nD τ sig) → Buf (Elt Ideal) ℓ) (c : Dev nD) :
    after (Cert.ReferenceIdeal.ValueP.ops (F := Ideal)) (launchContents m c) (Proc.devRef .tc main_v59)
      = sage (mean (m ((c.tc : Thread nD τ).loc main_arg1))) (m ((c.tc : Thread nD τ).loc main_arg0))
        (transpose S128x128 [1, 0] (m ((c.tc : Thread nD τ).loc main_arg2)) transposes_S128x128_S128x128_1_0)
        (transpose S128x128 [1, 0] (m ((c.tc : Thread nD τ).loc main_arg4)) transposes_S128x128_S128x128_1_0)
        (fun q => (m ((c.tc : Thread nD τ).loc main_arg3) : S128.Idx → EReal) (ix1 q))
        (transpose S128x64 [1, 0] (m ((c.tc : Thread nD τ).loc main_arg5)) transposes_S64x128_S128x64_1_0)
        (transpose S128x64 [1, 0] (m ((c.tc : Thread nD τ).loc main_arg7)) transposes_S64x128_S128x64_1_0)
        (fun q => (m ((c.tc : Thread nD τ).loc main_arg6) : S64.Idx → EReal) (ix1 q)) := by
  rw [ops_split, StableHlo.after_append, StableHlo.after_append, stageC_v59,
    stageB_v58 _ (m ((c.tc : Thread nD τ).loc main_arg1)) (stageA_v1 _) (stageA_v3 _),
    stageA_v31, stageA_arg5, stageA_arg6, stageA_arg7, logSoftmaxRows_affine2]
  rfl

end Cert.ReferenceIdeal.RV

end
-- ==== Proof.Mean.lean ====
/-
  The mean over in-neighbours, written two ways.

  With c the vector of in-degree counts and S the array of summed neighbour rows, one program multiplies row p of S by
  1 / max(c p, 1) and the other divides it by max(c p, 1). The divisor is at least one, hence not zero, and on the
  extended reals a quotient by a nonzero y is the product with y⁻¹; so the two agree at every entry, whatever S holds.
-/
import Idealize.ShloMosaic.PureOps.Ideal.Laws
import Idealize.ShloMosaic.Lib.ValueIdx
import Idealize.ShloMosaic.Lib.Pipeline.Value
import proofs.«169119_j29841432773038_1_alg».proof.Proof.Rows

noncomputable section

namespace Cert.Sage

open Idealize.ShloMosaic Idealize.ShloMosaic.ValueIdx

/-- x · (1 / y) = x / y for y ≥ 1. -/
theorem mul_one_div_eq_div (x y : EReal) (hy : (1 : EReal) ≤ y) : x * Ideal.div 1 y = Ideal.div x y := by
  have hy0 : y ≠ 0 := fun h => by rw [h] at hy; exact absurd hy (by norm_num)
  unfold Ideal.div
  rw [if_neg hy0, if_neg hy0, one_mul]

/-- The two spellings of the mean agree as whole arrays: S times the broadcast of 1 / max(c, 1) is S divided by the
    broadcast of max(c, 1), where the "1"s are the splat of the pattern of 1.0. -/
theorem mean_mul_eq_div {N D : Nat} (S : FVec Ideal ⟨2, ![N, D]⟩ .f32) (c : FVec Ideal ⟨1, ![N]⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, D]⟩ ![0, 1]) :
    mulf S (broadcastInDim ⟨2, ![N, D]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf c (broadcastInDim ⟨1, ![N]⟩ ![] h0 (constant (F := Ideal) ⟨0, ![]⟩ .f32 0x3F800000#32))))))
      = Host.divf S (broadcastInDim ⟨2, ![N, D]⟩ ![0, 1] h2 (broadcastInDim ⟨2, ![N, 1]⟩ ![0] h1
          (maximumf c (broadcastInDim ⟨1, ![N]⟩ ![] h0 (constant (F := Ideal) ⟨0, ![]⟩ .f32 0x3F800000#32))))) := by
  funext j
  simp only [mulf, Host.divf, maximumf, broadcastInDim, constant, Ideal.mulf_def, Ideal.hostDivf_def, Ideal.maximumf_def,
    Ideal.ofBits_def, ofBits_one]
  exact mul_one_div_eq_div _ _ (le_max_right _ _)

end Cert.Sage

end
-- ==== Proof.lean ====
/-
  Two-layer GraphSAGE with mean aggregation and a log-softmax head: the Pallas program against its jnp reference, over the
  extended reals.

  Both programs compute, for the node features x and the edge list,
      h   = max(0, mean(x) · W1_lᵀ + b1 + x · W1_rᵀ)
      out = log_softmax(mean(h) · W2_lᵀ + b2 + h · W2_rᵀ)          (row by row),
  where mean(X) averages, for each node, the rows of X at the sources of its incoming edges: the rows are gathered, summed
  onto their destinations, and scaled by the in-degree taken as at least one.

  The programs differ in three ways, none of which changes a value:
  • the kernel multiplies the summed rows by 1 / max(degree, 1) where the reference divides them by max(degree, 1): the
    divisor is at least one, so not zero, and a quotient by a nonzero extended real y is the product with y⁻¹;
  • the kernel forms each layer's affine part and epilogue in two pallas_calls, ten blocks of 5000 rows each, with the
    operands cast to bf16 before the matrix unit; at the ideal values a change of float format is the identity, a matrix
    product into a zero accumulator is the plain sum of products, and both layers act row by row, so the ten blocks of the
    layer applied to block-rows tile the layer applied to the whole arrays;
  • the reference's log_softmax takes the maximum of the row maximum with −∞ once more, which is the row maximum.
  Gather and scatter-add appear in both programs as the same operations of the same index vectors and are never opened.

  The three frame claims: the two kernel programs' are the generated frame certificates; the reference's is its run with
  the result dropped. The ideal pass rewrote nothing, so `preserves` has no conjunct.
-/
import proofs.«169119_j29841432773038_1_alg».proof.Defs
import proofs.«169119_j29841432773038_1_alg».proof.Proof.Gen.Kernel
import proofs.«169119_j29841432773038_1_alg».proof.Proof.Gen.Kernel.Skeleton
import proofs.«169119_j29841432773038_1_alg».proof.Proof.Gen.Kernel.Launch
import proofs.«169119_j29841432773038_1_alg».proof.Proof.Gen.Kernel.Points
import proofs.«169119_j29841432773038_1_alg».proof.Proof.Gen.Kernel.Frame
import proofs.«169119_j29841432773038_1_alg».proof.Proof.Gen.KernelIdeal
import proofs.«169119_j29841432773038_1_alg».proof.Proof.Gen.KernelIdeal.Skeleton
import proofs.«169119_j29841432773038_1_alg».proof.Proof.Gen.KernelIdeal.Launch
import proofs.«169119_j29841432773038_1_alg».proof.Proof.Gen.KernelIdeal.Points
import proofs.«169119_j29841432773038_1_alg».proof.Proof.Gen.KernelIdeal.Frame
import proofs.«169119_j29841432773038_1_alg».proof.Proof.Gen.ReferenceIdeal
import proofs.«169119_j29841432773038_1_alg».proof.Proof.Gen.Pre_finite_inputs
import proofs.«169119_j29841432773038_1_alg».proof.Proof.KRun
import proofs.«169119_j29841432773038_1_alg».proof.Proof.KValue
import proofs.«169119_j29841432773038_1_alg».proof.Proof.RefRun
import proofs.«169119_j29841432773038_1_alg».proof.Proof.RefArgs
import proofs.«169119_j29841432773038_1_alg».proof.Proof.RefValue
import proofs.«169119_j29841432773038_1_alg».proof.Proof.Mean
import Idealize.ShloMosaic.Adequacy
import Idealize.ShloMosaic.Init

noncomputable section

namespace Cert.Proof

open Idealize.ShloMosaic Idealize.ShloMosaic.TcCoe Idealize.SL.Sem

/-- The two spellings of the mean over in-neighbours are one function: the product with the reciprocal degree is the
    quotient by the degree, the degree taken as at least one (the gathers and scatters are the same operations). -/
theorem mean_eq (E : IVec Cert.KernelIdeal.S2x600000 32) (X : FVec Ideal Cert.KernelIdeal.S50000x128 .f32) :
    Cert.KernelIdeal.KV.mean E X = Cert.ReferenceIdeal.RV.mean E X := by
  unfold Cert.KernelIdeal.KV.mean Cert.KernelIdeal.KV.inv
  refine (Cert.Sage.mean_mul_eq_div (N := 50000) (D := 128) _ _ _ _ _).trans ?_
  rfl

theorem frame_k : Cert.frame_Kernel := fun m ρ _ => Cert.Kernel.Gen.frame m ρ

theorem frame_ki : Cert.frame_KernelIdeal := fun m ρ _ => Cert.KernelIdeal.Gen.frame m ρ

/-- The reference runs, and writes none of its arguments. -/
theorem frame_ri : Cert.frame_ReferenceIdeal := fun m ρ _ =>
  (θ_run Cert.ReferenceIdeal.defs _ _).mono (fun _ h c =>
    ⟨(h c _).trans (Cert.ReferenceIdeal.Args.kept0 m c), (h c _).trans (Cert.ReferenceIdeal.Args.kept1 m c),
     (h c _).trans (Cert.ReferenceIdeal.Args.kept2 m c), (h c _).trans (Cert.ReferenceIdeal.Args.kept3 m c),
     (h c _).trans (Cert.ReferenceIdeal.Args.kept4 m c), (h c _).trans (Cert.ReferenceIdeal.Args.kept5 m c),
     (h c _).trans (Cert.ReferenceIdeal.Args.kept6 m c), (h c _).trans (Cert.ReferenceIdeal.Args.kept7 m c)⟩)
    (Cert.ReferenceIdeal.ValueP.run_raw (F := Ideal) m ρ)

/-- From memories agreeing on the arguments both programs end with the network's function of the arguments in their
    result arrays: the kernel's read off its two regions, the reference's off its operations, the two means one function. -/
theorem algebraic : Cert.algebraic_KernelIdeal_ReferenceIdeal := by
  intro m ρ m' ρ' _ hagree
  refine ⟨fun c => Cert.KernelIdeal.Gen.W4 m ρ c (Proc.devRef .tc Cert.KernelIdeal.main_v45),
    Cert.KernelIdeal.GenRun.run_main (F := Ideal) m ρ, ?_⟩
  refine (θ_run Cert.ReferenceIdeal.defs _ _).mono (fun _ h c =>
    ⟨(h c _).trans ?_, (h c _).trans (Cert.ReferenceIdeal.Args.kept0 m' c), (h c _).trans (Cert.ReferenceIdeal.Args.kept1 m' c),
     (h c _).trans (Cert.ReferenceIdeal.Args.kept2 m' c), (h c _).trans (Cert.ReferenceIdeal.Args.kept3 m' c),
     (h c _).trans (Cert.ReferenceIdeal.Args.kept4 m' c), (h c _).trans (Cert.ReferenceIdeal.Args.kept5 m' c),
     (h c _).trans (Cert.ReferenceIdeal.Args.kept6 m' c), (h c _).trans (Cert.ReferenceIdeal.Args.kept7 m' c)⟩)
    (Cert.ReferenceIdeal.ValueP.run_raw (F := Ideal) m' ρ')
  rw [Cert.ReferenceIdeal.RV.ref_value m' c]
  refine Eq.trans ?_ (Cert.KernelIdeal.KV.kernel_value m ρ c).symm
  obtain ⟨e0, e1, e2, e3, e4, e5, e6, e7⟩ := hagree c
  rw [e0, e1, e2, e3, e4, e5, e6, e7]
  have hmean : Cert.ReferenceIdeal.RV.mean (m ((c.tc : Thread Cert.KernelIdeal.nD Cert.KernelIdeal.τ).loc Cert.KernelIdeal.main_arg1))
      = Cert.KernelIdeal.KV.mean (m ((c.tc : Thread Cert.KernelIdeal.nD Cert.KernelIdeal.τ).loc Cert.KernelIdeal.main_arg1)) :=
    funext fun X => (mean_eq _ X).symm
  rw [hmean]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
